-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x128 : Shape := ⟨2, ![2000, 128]⟩
abbrev S2000x1 : Shape := ⟨2, ![2000, 1]⟩
abbrev S800000x128 : Shape := ⟨2, ![800000, 128]⟩
abbrev S1x128 : Shape := ⟨2, ![1, 128]⟩

abbrev nBuf : Space → Nat
  | .hbm => 62
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S1x128, .f32⟩
  | .hbm, ⟨61, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S2000x1, .f32⟩
  | .local _ .vmem, ⟨11, _⟩ => ⟨S2000x1, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_c_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x128, .f32⟩
  | .hbm, ⟨88, _⟩ => ⟨S_, .f32⟩
  | .hbm, ⟨89, _⟩ => ⟨S50000x128, .f32⟩
  | .hbm, ⟨90, _⟩ => ⟨S800000x1, .i32⟩
  | .hbm, ⟨91, _⟩ => ⟨S50000x128, .f32⟩
  | .hbm, ⟨92, _⟩ => ⟨S50000, .f32⟩
  | .hbm, ⟨93, _⟩ => ⟨S50000x1, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_cst_3 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_4 : Ref sig .tc := ⟨.hbm, 23, rfl⟩
abbrev main_call1_v0 : Ref sig .tc := ⟨.hbm, 24, rfl⟩
abbrev main_call1_v1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call2_cst : Ref sig .tc := ⟨.hbm, 52, rfl⟩
abbrev main_call2_v0 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_call3_v0 : Ref sig .tc := ⟨.hbm, 62, rfl⟩
abbrev main_call3_v1 : Ref sig .tc := ⟨.hbm, 63, rfl⟩
abbrev main_v37 : Ref sig .tc := ⟨.hbm, 64, rfl⟩
abbrev main_cst_10 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_12 : Ref sig .tc := ⟨.hbm, 71, rfl⟩
abbrev main_call4_v0 : Ref sig .tc := ⟨.hbm, 72, rfl⟩
abbrev main_call4_v1 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_13 : Ref sig .tc := ⟨.hbm, 79, rfl⟩
abbrev main_v47 : Ref sig .tc := ⟨.hbm, 80, rfl⟩
abbrev main_v48 : Ref sig .tc := ⟨.hbm, 81, rfl⟩
abbrev main_c_14 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_15 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The specification: what both programs compute, as ONE function `G` of the seven argument arrays, written as the
  composition of its stages.

  A graph of 50000 nodes and 800000 edges (`src e → dst e`), node features `x` of width 128, two dense layers
  `(W1, b1)`, `(W2, b2)`.
    deg idx n   = max 1 (number of edges e with idx e = n)          (the count is a scatter-add of ones)
    inv idx n   = (deg idx n)^(-1/2)
    aggregate h = the array whose row n is the sum of the rows `h (src e)` over the edges e with dst e = n
                  (a gather at the wrapped source index, then a scatter-add)
    layer h W b = (aggregate h · inv dst) W + b                      (rows scaled, then the matrix product, then the bias)
    G           = layer (relu (layer (x · inv src) W1 b1) · inv src) W2 b2
  The stages are cut where the kernel's three regions cut them: a region's result array is `scale`, `layer1` or
  `layer2` of the arrays the region finds, the degree columns and bias rows entering as [50000,1] and [1,128] arrays.
-/
import proofs.«156590_j82755429859753_1_alg».proof.ReferenceIdeal
import Idealize.ShloMosaic.PureOps.Ideal

noncomputable section

namespace Cert.Spec

open Idealize.ShloMosaic Cert.ReferenceIdeal

variable {F : FTy → Type} [FloatOps F] [Cert.ReferenceIdeal.Facts₀]

open Cert.ReferenceIdeal.Facts₀

/-- An array of the given shape and element type, as the programs' buffers hold it. -/
abbrev Arr (F : FTy → Type) [FloatOps F] (s : Shape) (e : EltTy) : Type := (⟨s, e⟩ : BufTy).Contents (Elt F)

/-- `inv idx`: per node, the inverse square root of the number of edges whose `idx` end is the node, that number
    clipped below at one. -/
def inv (idx : Arr F S800000 .i32) : Arr F S50000 .f32 :=
  Host.rsqrt (maximumf (broadcastInDim S50000 ![] bcast_S_S50000 (id (constant S_ .f32 0x3F800000#32))) (Host.scatterAdd scatter_S50000_S800000x1_S800000_n_0_0_1 (broadcastInDim S50000 ![] bcast_S_S50000 (constant S_ .f32 0x00000000#32)) (broadcastInDim S800000x1 ![0] bcast_S800000_S800000x1_0 idx) (broadcastInDim S800000 ![] bcast_S_S800000 (constant S_ .f32 0x3F800000#32))))

/-- A per-node vector as a column. -/
def colOf (v : Arr F S50000 .f32) : Arr F S50000x1 .f32 := broadcastInDim S50000x1 ![0] bcast_S50000_S50000x1_0 v

/-- A bias vector as a row. -/
def rowOf (b : Arr F S128 .f32) : Arr F S1x128 .f32 := broadcastInDim S1x128 ![1] bcast_S128_S1x128_1 b

/-- Row `n` of `X` times entry `n` of the column. -/
def scale (X : Arr F S50000x128 .f32) (col : Arr F S50000x1 .f32) : Arr F S50000x128 .f32 :=
  mulf X (broadcastInDim S50000x128 ![0, 1] bcast_S50000x1_S50000x128_0_1 col)

/-- Row `n` of the result is the sum over the edges into `n` of the source node's row of `h` (a negative source
    index counted from the end). -/
def aggregate (h : Arr F S50000x128 .f32) (src dst : Arr F S800000 .i32) : Arr F S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))

/-- The rows scaled by the column, times the weights, plus the bias row on every row. -/
def layer2 (msg : Arr F S50000x128 .f32) (cin : Arr F S50000x1 .f32) (W : Arr F S128x128 .f32) (brow : Arr F S1x128 .f32) : Arr F S50000x128 .f32 :=
  addf (Host.dotGeneral dot_S50000x128_S128x128_S50000x128_1_0_0_1_n_n none (scale msg cin) W) (broadcastInDim S50000x128 ![0, 1] bcast_S1x128_S50000x128_0_1 brow)

/-- `layer2`, its negative entries set to zero, the rows then scaled by a second column. -/
def layer1 (msg : Arr F S50000x128 .f32) (cin cout : Arr F S50000x1 .f32) (W : Arr F S128x128 .f32) (brow : Arr F S1x128 .f32) : Arr F S50000x128 .f32 :=
  scale (maximumf (layer2 msg cin W brow) (broadcastInDim S50000x128 ![] bcast_S_S50000x128 (constant S_ .f32 0x00000000#32))) cout

/-- The whole computation. -/
def G (x : Arr F S50000x128 .f32) (src dst : Arr F S800000 .i32) (W1 : Arr F S128x128 .f32) (b1 : Arr F S128 .f32) (W2 : Arr F S128x128 .f32) (b2 : Arr F S128 .f32) : Arr F S50000x128 .f32 :=
  layer2 (aggregate (layer1 (aggregate (scale x (colOf (inv src))) src dst) (colOf (inv dst)) (colOf (inv src)) W1 (rowOf b1)) src dst) (colOf (inv dst)) W2 (rowOf b2)

end Cert.Spec

end
-- ==== Proof.Region0.lean ====
/-
  The first region's result array. The region walks 25 blocks of 2000 rows; at each it multiplies the block of its
  first operand, entry by entry, by the matching 2000 entries of the column operand, broadcast along the rows. Block
  `t` is rows `2000 t … 2000 t + 1999` of both arrays (every column of the first, the one column of the second), so
  what point `t` writes back is block `t` of `Spec.scale` of the two arrays; the 25 blocks tile the 50000 rows, so
  the array ends at `Spec.scale`.
-/
import proofs.«156590_j82755429859753_1_alg».proof.Proof.Gen.KernelIdeal.Frame
import proofs.«156590_j82755429859753_1_alg».proof.Proof.Gen.ReferenceIdeal
import proofs.«156590_j82755429859753_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- The body's product at row `p`, column `q` of a block: the entry times the column operand's entry of row `p`. -/
theorem pay_apply (x1 : Vec Ideal S2000x1 .f32) (x0 : Vec Ideal S2000x128 .f32) (p : Fin 2000) (q : Fin 128) :
    k0_pay1 x1 x0 (ix2 p q) = x0 (ix2 p q) * x1 (ix2 p 0) := by
  unfold k0_pay1
  simp only [shapeCast_self]
  show x0 (ix2 p q) * broadcastTo S2000x128 x1 broadcasts_S2000x1_S2000x128 (ix2 p q) = _
  rw [broadcastTo_apply x1 broadcasts_S2000x1_S2000x128 (ix2 p q) (ix2 p 0) (fun a => by
    match a with
    | ⟨0, _⟩ => rfl
    | ⟨1, _⟩ => rfl)]

/-- `Spec.scale` at row `r`, column `q`. -/
theorem scale_apply (X : Spec.Arr Ideal S50000x128 .f32) (col : Spec.Arr Ideal S50000x1 .f32) (r : Fin 50000) (q : Fin 128) :
    Spec.scale X col (ix2 r q) = X (ix2 r q) * col (ix2 r 0) := by
  unfold Spec.scale
  show X (ix2 r q) * broadcastInDim _ ![0, 1] Cert.ReferenceIdeal.Gen.bcast_S50000x1_S50000x128_0_1 col (ix2 r q) = _
  rw [broadcastInDim_apply ![0, 1] Cert.ReferenceIdeal.Gen.bcast_S50000x1_S50000x128_0_1 col (ix2 r q) (ix2 r 0) (fun a => by
    match a with
    | ⟨0, _⟩ => rfl
    | ⟨1, _⟩ => rfl)]

/-- The printed index maps over the grid: all three windows are at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 25 := Nat.lt_of_lt_of_eq t.isLt (show cfg0.N = 25 from N_0)

/-- What point `t` writes back is block `t` of `Spec.scale` of the two operand arrays as the region finds them. -/
theorem flushed_eq (c : Dev nD) (t : Fin cfg0.N) :
    (dat0 V c).flushed 2 t = ((cfg0.win 2).blk t).view.read (Elt Ideal) (Spec.scale (V c main_arg0) (V c main_v6)) := by
  show (cfg0.win 2).cut (grid0.coords t) ((dat0 V c).after 2 t) = _
  rw [after0_2]
  unfold out0_2
  rw [View.canon_unit_zero zeroOffsets]
  simp only [View.ld_unit_zero (S := S2000x128) zeroOffsets, View.ld_unit_zero (S := S2000x1) zeroOffsets]
  obtain ⟨e00, e01, e10, e11, e20, e21⟩ := idx_facts t
  have ht := point_lt t
  funext j
  obtain ⟨p, q, rfl⟩ : ∃ (p : Fin 2000) (q : Fin 128), j = ix2 p q := ⟨j 0, j 1, eq_ix2 j⟩
  have hp := p.isLt
  have hq := q.isLt
  show k0_pay1 (iblk0 V c 1 t) (iblk0 V c 0 t) (ix2 p q) = Spec.scale (V c main_arg0) (V c main_v6) (((cfg0.win 2).blk t).view.emb (ix2 p q))
  have hemb : ((cfg0.win 2).blk t).view.emb (ix2 p q) = ix2 (⟨t.val * 2000 + p.val, by omega⟩ : Fin 50000) q := by
    funext a; apply Fin.ext
    match a with
    | ⟨0, _⟩ => show win0_2.index t (0 : Fin 2) * 2000 + 1 * p.val = t.val * 2000 + p.val; rw [e20]; omega
    | ⟨1, _⟩ => show win0_2.index t (1 : Fin 2) * 128 + 1 * q.val = q.val; rw [e21]; omega
  have h0 : iblk0 V c 0 t (ix2 p q) = (V c main_arg0 : Spec.Arr Ideal S50000x128 .f32) (ix2 (⟨t.val * 2000 + p.val, by omega⟩ : Fin 50000) q) := by
    show V c main_arg0 (((cfg0.win 0).blk t).view.emb (ix2 p q)) = _
    refine congrArg (V c main_arg0) ?_
    funext a; apply Fin.ext
    match a with
    | ⟨0, _⟩ => show win0_0.index t (0 : Fin 2) * 2000 + 1 * p.val = t.val * 2000 + p.val; rw [e00]; omega
    | ⟨1, _⟩ => show win0_0.index t (1 : Fin 2) * 128 + 1 * q.val = q.val; rw [e01]; omega
  have h1 : iblk0 V c 1 t (ix2 p (0 : Fin 1)) = (V c main_v6 : Spec.Arr Ideal S50000x1 .f32) (ix2 (⟨t.val * 2000 + p.val, by omega⟩ : Fin 50000) (0 : Fin 1)) := by
    show V c main_v6 (((cfg0.win 1).blk t).view.emb (ix2 p (0 : Fin 1))) = _
    refine congrArg (V c main_v6) ?_
    funext a; apply Fin.ext
    match a with
    | ⟨0, _⟩ => show win0_1.index t (0 : Fin 2) * 2000 + 1 * p.val = t.val * 2000 + p.val; rw [e10]; omega
    | ⟨1, _⟩ => show win0_1.index t (1 : Fin 2) * 1 + 1 * 0 = 0; rw [e11]
  rw [hemb, scale_apply, pay_apply, h0, h1]

/-- The 25 blocks tile the array, so it ends at `Spec.scale` of the two operand arrays. -/
theorem value (c : Dev nD) : (dat0 V c).arrAt 2 cfg0.N = Spec.scale (V c main_arg0) (V c main_v6) :=
  (dat0 V c).arrAt_eq_of_cover 2 _ (fun t _ => flushed_eq V c t) fun i => by
    have hi0 : (i 0).val < 50000 := (i 0).isLt
    have hi1 : (i 1).val < 128 := (i 1).isLt
    have hN : (i 0).val / 2000 < cfg0.N := by rw [show cfg0.N = 25 from N_0]; omega
    refine ⟨⟨(i 0).val / 2000, hN⟩, flush0_2 _, ?_⟩
    obtain ⟨-, -, -, -, e20, e21⟩ := idx_facts ⟨(i 0).val / 2000, hN⟩
    show i ∈ ((View.whole main_v14).slice (win0_2.rect ⟨(i 0).val / 2000, hN⟩)).set
    rw [View.set_slice_whole, Rect.mem_set_unit]
    intro a
    match a with
    | ⟨0, _⟩ => show win0_2.index ⟨(i 0).val / 2000, hN⟩ (0 : Fin 2) * 2000 ≤ (i 0).val ∧ (i 0).val < win0_2.index ⟨(i 0).val / 2000, hN⟩ (0 : Fin 2) * 2000 + 2000; rw [e20]; show (i 0).val / 2000 * 2000 ≤ (i 0).val ∧ (i 0).val < (i 0).val / 2000 * 2000 + 2000; omega
    | ⟨1, _⟩ => show win0_2.index ⟨(i 0).val / 2000, hN⟩ (1 : Fin 2) * 128 ≤ (i 1).val ∧ (i 1).val < win0_2.index ⟨(i 0).val / 2000, hN⟩ (1 : Fin 2) * 128 + 128; rw [e21]; omega

end Cert.KernelIdeal.Region0

end
-- ==== Proof.ChainA.lean ====
/-
  The kernel's result, boundary by boundary: up to the first region's exit.

  @main is five host stretches, a region, a host stretch, a region, a host stretch, a region. The generated frame names
  the TensorCore's buffer contents at every boundary (a host stretch's operations applied to the contents before it; a
  region's arrays at what its write-backs leave, everything else kept). Each buffer a later step reads is followed
  through those boundaries in terms of the seven argument arrays:
    before the first region   the two degree columns  colOf (inv src), colOf (inv dst)  (a reshape of a vector to a
                              column is the reference's broadcast of it to a column: the same entries);
    after it                  s0 = scale x (colOf (inv src)).
  No host operation and no region writes an argument array or a degree column once made, so those are carried along.
-/
import proofs.«156590_j82755429859753_1_alg».proof.Proof.Gen.KernelIdeal.Frame
import proofs.«156590_j82755429859753_1_alg».proof.Proof.Gen.ReferenceIdeal
import proofs.«156590_j82755429859753_1_alg».proof.Proof.Spec
import proofs.«156590_j82755429859753_1_alg».proof.Proof.Region0
import Idealize.ShloMosaic.Lib.StableHlo.Run
import Idealize.ShloMosaic.Lib.Pipeline.Value
import Idealize.ShloMosaic.Lib.ValueIdx

set_option maxRecDepth 16384
set_option Elab.async false

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx

/-! ## Two layout facts -/

/-- A vector reshaped to a column holds, at (r,0), the vector's entry r: it is the vector broadcast to a column. -/
theorem reshape_col (v : Spec.Arr Ideal S50000 .f32) (h : S50000.ShapeCasts S50000x1) :
    shapeCast S50000x1 v h = Spec.colOf v := by
  funext j
  obtain ⟨r, z, rfl⟩ : ∃ (r : Fin 50000) (z : Fin 1), j = ix2 r z := ⟨j 0, j 1, eq_ix2 j⟩
  have hz := z.isLt
  unfold Spec.colOf
  rw [shapeCast_apply v h (ix2 r z) (ix1 r) (by
        rw [Shape.rowMajor_val_one, Shape.rowMajor_val_two]
        show r.val = r.val * 1 + z.val
        omega),
    broadcastInDim_apply ![0] _ v (ix2 r z) (ix1 r) (fun a => by
      match a with
      | ⟨0, _⟩ => rfl)]

/-- A vector reshaped to a row holds, at (0,q), the vector's entry q: it is the vector broadcast to a row. -/
theorem reshape_row (b : Spec.Arr Ideal S128 .f32) (h : S128.ShapeCasts S1x128) :
    shapeCast S1x128 b h = Spec.rowOf b := by
  funext j
  obtain ⟨z, q, rfl⟩ : ∃ (z : Fin 1) (q : Fin 128), j = ix2 z q := ⟨j 0, j 1, eq_ix2 j⟩
  have hz := z.isLt
  unfold Spec.rowOf
  rw [shapeCast_apply b h (ix2 z q) (ix1 q) (by
        rw [Shape.rowMajor_val_one, Shape.rowMajor_val_two]
        show q.val = z.val * 128 + q.val
        omega),
    broadcastInDim_apply ![1] _ b (ix2 z q) (ix1 q) (fun a => by
      match a with
      | ⟨0, _⟩ => rfl)]

/-! ## The kernel's host operations are the specification's

Both programs print the same scatter and gather records, each in its own namespace: the records are equal, and with
them the kernel's host terms for a degree vector and for an aggregation are `Spec.inv` and `Spec.aggregate`. -/

theorem scatter1_eq : Cert.KernelIdeal.scatter_S50000_S800000x1_S800000_n_0_0_1 = Cert.ReferenceIdeal.scatter_S50000_S800000x1_S800000_n_0_0_1 := rfl
theorem scatter2_eq : Cert.KernelIdeal.scatter_S50000x128_S800000x1_S800000x128_1_0_0_1 = Cert.ReferenceIdeal.scatter_S50000x128_S800000x1_S800000x128_1_0_0_1 := rfl
theorem gather_eq : Cert.KernelIdeal.gather_S50000x128_S800000x1_S800000x128_1_0_n_n_0_1_1128 = Cert.ReferenceIdeal.gather_S50000x128_S800000x1_S800000x128_1_0_n_n_0_1_1128 := rfl

/-- The clipped count of an index vector, its inverse square root: the kernel's host operations for it. -/
theorem inv_eq (idx : Spec.Arr Ideal S800000 .i32) :
    Host.rsqrt (F := Ideal) (maximumf (broadcastInDim S50000 ![] bcast_S_S50000 (id (constant S_ .f32 0x3F800000#32)))
      (Host.scatterAdd scatter_S50000_S800000x1_S800000_n_0_0_1 (broadcastInDim S50000 ![] bcast_S_S50000 (constant S_ .f32 0x00000000#32)) (broadcastInDim S800000x1 ![0] bcast_S800000_S800000x1_0 idx) (broadcastInDim S800000 ![] bcast_S_S800000 (constant S_ .f32 0x3F800000#32))))
    = Spec.inv idx := by
  unfold Spec.inv
  rw [scatter1_eq]

/-- The gather at the wrapped source index and the scatter-add at the destination index: the kernel's host operations
    for an aggregation. -/
theorem aggregate_eq (h : Spec.Arr Ideal S50000x128 .f32) (src dst : Spec.Arr Ideal S800000 .i32) :
    Host.scatterAdd (F := Ideal) scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))
    = Spec.aggregate h src dst := by
  unfold Spec.aggregate
  rw [scatter2_eq, gather_eq]

variable (m : (ℓ : Loc nD τ sig) → Buf (Elt Ideal) ℓ) (ρ : Dev nD → PrngReg)

/-! ## The argument arrays and the stages -/

abbrev aX (c : Dev nD) : Spec.Arr Ideal S50000x128 .f32 := m ((c : Thread nD τ).loc main_arg0)
abbrev aSrc (c : Dev nD) : Spec.Arr Ideal S800000 .i32 := m ((c : Thread nD τ).loc main_arg1)
abbrev aDst (c : Dev nD) : Spec.Arr Ideal S800000 .i32 := m ((c : Thread nD τ).loc main_arg2)
abbrev aW1 (c : Dev nD) : Spec.Arr Ideal S128x128 .f32 := m ((c : Thread nD τ).loc main_arg3)
abbrev aB1 (c : Dev nD) : Spec.Arr Ideal S128 .f32 := m ((c : Thread nD τ).loc main_arg4)
abbrev aW2 (c : Dev nD) : Spec.Arr Ideal S128x128 .f32 := m ((c : Thread nD τ).loc main_arg5)
abbrev aB2 (c : Dev nD) : Spec.Arr Ideal S128 .f32 := m ((c : Thread nD τ).loc main_arg6)
/-- The out-degree column and the in-degree column. -/
abbrev cOut (c : Dev nD) : Spec.Arr Ideal S50000x1 .f32 := Spec.colOf (Spec.inv (aSrc m c))
abbrev cIn (c : Dev nD) : Spec.Arr Ideal S50000x1 .f32 := Spec.colOf (Spec.inv (aDst m c))
abbrev s0 (c : Dev nD) : Spec.Arr Ideal S50000x128 .f32 := Spec.scale (aX m c) (cOut m c)
abbrev g1 (c : Dev nD) : Spec.Arr Ideal S50000x128 .f32 := Spec.aggregate (s0 m c) (aSrc m c) (aDst m c)
abbrev l1 (c : Dev nD) : Spec.Arr Ideal S50000x128 .f32 := Spec.layer1 (g1 m c) (cIn m c) (cOut m c) (aW1 m c) (Spec.rowOf (aB1 m c))
abbrev g2 (c : Dev nD) : Spec.Arr Ideal S50000x128 .f32 := Spec.aggregate (l1 m c) (aSrc m c) (aDst m c)
abbrev out (c : Dev nD) : Spec.Arr Ideal S50000x128 .f32 := Spec.layer2 (g2 m c) (cIn m c) (aW2 m c) (Spec.rowOf (aB2 m c))

/-- The last stage is the specification of the arguments. -/
theorem out_eq (c : Dev nD) : out m c = Spec.G (aX m c) (aSrc m c) (aDst m c) (aW1 m c) (aB1 m c) (aW2 m c) (aB2 m c) := rfl

/-- Unfold the host stretches up to the last region exit before them and read one buffer through their operations. -/
macro "walk" : tactic => `(tactic| (
  dsimp only [W9, W7, W5, W4, W3, W2, W1, hostOps0, hostOps0_1, hostOps0_2, hostOps0_3, hostOps0_4, hostOps1, hostOps2]
  after_results))

/-! ## Before the first region -/

theorem e5_arg0 (c : Dev nD) : W5 m ρ c (Proc.devRef .tc main_arg0) = aX m c := by walk
theorem e5_arg1 (c : Dev nD) : W5 m ρ c (Proc.devRef .tc main_arg1) = aSrc m c := by walk
theorem e5_arg2 (c : Dev nD) : W5 m ρ c (Proc.devRef .tc main_arg2) = aDst m c := by walk
theorem e5_arg3 (c : Dev nD) : W5 m ρ c (Proc.devRef .tc main_arg3) = aW1 m c := by walk
theorem e5_arg4 (c : Dev nD) : W5 m ρ c (Proc.devRef .tc main_arg4) = aB1 m c := by walk
theorem e5_arg5 (c : Dev nD) : W5 m ρ c (Proc.devRef .tc main_arg5) = aW2 m c := by walk
theorem e5_arg6 (c : Dev nD) : W5 m ρ c (Proc.devRef .tc main_arg6) = aB2 m c := by walk
/-- The out-degree column: the clipped count of the source indices, its inverse square root, as a column. -/
theorem e5_v6 (c : Dev nD) : W5 m ρ c (Proc.devRef .tc main_v6) = cOut m c := by
  walk
  -- the reshape is the broadcast to a column; under it, the vector is `Spec.inv` of the index array
  refine Eq.trans ?_ (reshape_col (Spec.inv (aSrc m c)) shapeCasts_S50000_S50000x1)
  show shapeCast S50000x1 _ shapeCasts_S50000_S50000x1 = _
  refine congrArg (fun v => shapeCast S50000x1 v shapeCasts_S50000_S50000x1) ?_
  refine Eq.trans ?_ (inv_eq (aSrc m c))
  refine congrArg (Host.rsqrt (F := Ideal)) ?_
  show maximumf _ _ = _
  refine congr (congrArg maximumf ?_) ?_
  · rfl
  · show Host.scatterAdd _ _ _ _ = _
    rfl
/-- The in-degree column, the same of the destination indices. -/
theorem e5_v13 (c : Dev nD) : W5 m ρ c (Proc.devRef .tc main_v13) = cIn m c := by
  walk
  -- the reshape is the broadcast to a column; under it, the vector is `Spec.inv` of the index array
  refine Eq.trans ?_ (reshape_col (Spec.inv (aDst m c)) shapeCasts_S50000_S50000x1)
  show shapeCast S50000x1 _ shapeCasts_S50000_S50000x1 = _
  refine congrArg (fun v => shapeCast S50000x1 v shapeCasts_S50000_S50000x1) ?_
  refine Eq.trans ?_ (inv_eq (aDst m c))
  refine congrArg (Host.rsqrt (F := Ideal)) ?_
  show maximumf _ _ = _
  refine congr (congrArg maximumf ?_) ?_
  · rfl
  · show Host.scatterAdd _ _ _ _ = _
    rfl

/-! ## After the first region: its result array; everything else kept -/

theorem e6_v14 (c : Dev nD) : W6 m ρ c (Proc.devRef .tc main_v14) = s0 m c :=
  (W6_arr m ρ c 2).trans ((Region0.value (V5 m ρ) c).trans
    (congr (congrArg Spec.scale (e5_arg0 m ρ c)) (e5_v6 m ρ c)))
theorem e6_arg1 (c : Dev nD) : W6 m ρ c (Proc.devRef .tc main_arg1) = aSrc m c := (W6_of_ne m ρ c main_arg1 (by decide)).trans (e5_arg1 m ρ c)
theorem e6_arg2 (c : Dev nD) : W6 m ρ c (Proc.devRef .tc main_arg2) = aDst m c := (W6_of_ne m ρ c main_arg2 (by decide)).trans (e5_arg2 m ρ c)
theorem e6_arg3 (c : Dev nD) : W6 m ρ c (Proc.devRef .tc main_arg3) = aW1 m c := (W6_of_ne m ρ c main_arg3 (by decide)).trans (e5_arg3 m ρ c)
theorem e6_arg4 (c : Dev nD) : W6 m ρ c (Proc.devRef .tc main_arg4) = aB1 m c := (W6_of_ne m ρ c main_arg4 (by decide)).trans (e5_arg4 m ρ c)
theorem e6_arg5 (c : Dev nD) : W6 m ρ c (Proc.devRef .tc main_arg5) = aW2 m c := (W6_of_ne m ρ c main_arg5 (by decide)).trans (e5_arg5 m ρ c)
theorem e6_arg6 (c : Dev nD) : W6 m ρ c (Proc.devRef .tc main_arg6) = aB2 m c := (W6_of_ne m ρ c main_arg6 (by decide)).trans (e5_arg6 m ρ c)
theorem e6_v6 (c : Dev nD) : W6 m ρ c (Proc.devRef .tc main_v6) = cOut m c :=
  (W6_arr m ρ c 1).trans (((dat0 (V5 m ρ) c).arrAt_in 1 rfl _).trans ((A_eq0 (V5 m ρ) c 1).trans (e5_v6 m ρ c)))
theorem e6_v13 (c : Dev nD) : W6 m ρ c (Proc.devRef .tc main_v13) = cIn m c := (W6_of_ne m ρ c main_v13 (by decide)).trans (e5_v13 m ρ c)

end Cert.KernelIdeal.Chain

end
-- ==== Proof.Reads.lean ====
/-
  Entries of the matrix stages, read at a row and a column.

  On both sides the product of a [rows,128] array with a [128,128] array is, at row r and column q, the sum over
  k < 128 of (left at (r,k)) · (right at (k,q)): the kernel's product into a zero accumulator on a block of 2000 rows, the
  reference's on all 50000. Over the extended reals a change of float format is the identity, so the kernel's
  narrowing of both operands drops out. The column broadcasts read entry (r,0), the bias row's broadcast entry (0,q).
  With these, `Spec.layer2` and `Spec.layer1` at (r,q) and the two matrix bodies at (p,q) of a block are the same
  expression of the entries they read.
-/
import proofs.«156590_j82755429859753_1_alg».proof.Proof.Gen.KernelIdeal.Frame
import proofs.«156590_j82755429859753_1_alg».proof.Proof.Gen.ReferenceIdeal
import proofs.«156590_j82755429859753_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reads

open Cert.KernelIdeal Cert.KernelIdeal.Gen
open Idealize.ShloMosaic Idealize.ShloMosaic.TcCoe Idealize.SL.Sem Idealize.ShloMosaic.ValueIdx
open scoped BigOperators

/-! ## Broadcasts inside a block -/

/-- A [2000,1] column broadcast along the rows of a block, at (p,q), is the column's entry of row p. -/
theorem bcol_apply {α : Type} (v : S2000x1.Idx → α) (h : S2000x1.Broadcasts S2000x128) (p : Fin 2000) (q : Fin 128) :
    broadcastTo S2000x128 v h (ix2 p q) = v (ix2 p 0) :=
  broadcastTo_apply v h (ix2 p q) (ix2 p 0) (fun a => by
    match a with
    | ⟨0, _⟩ => rfl
    | ⟨1, _⟩ => rfl)

/-- A [1,128] row broadcast down a block, at (p,q), is the row's entry of column q. -/
theorem brow_apply {α : Type} (v : S1x128.Idx → α) (h : S1x128.Broadcasts S2000x128) (p : Fin 2000) (q : Fin 128) :
    broadcastTo S2000x128 v h (ix2 p q) = v (ix2 0 q) :=
  broadcastTo_apply v h (ix2 p q) (ix2 0 q) (fun a => by
    match a with
    | ⟨0, _⟩ => rfl
    | ⟨1, _⟩ => rfl)

/-! ## The kernel's product on a block, as a sum -/

theorem lhsK_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsK_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhsK_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhsK_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, at (p,q): the sum over k of left (p,k) times right (k,q). -/
theorem matmulK_apply {φ₁ φ₂ : FTy} (lhs : FVec Ideal S2000x128 φ₁) (rhs : FVec Ideal S128x128 φ₂) (p : Fin 2000) (q : Fin 128) :
    matmul dot_S2000x128_S128x128_S2000x128_1_0_0_1_n_n none lhs rhs (constant S2000x128 .f32 0x00000000#32) (ix2 p q)
      = ∑ k : Fin 128, lhs (ix2 p k) * rhs (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhsK_0 _ _
    | ⟨1, _⟩ => exact (lhsK_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhsK_0 _ _).trans hk
    | ⟨1, _⟩ => exact rhsK_1 _ _)
  rw [el, er]

/-! ## The reference's product on the whole array, as a sum -/

theorem lhsR_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem lhsR_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rhsR_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rhsR_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The whole-array product, at (r,q): the sum over k of left (r,k) times right (k,q). -/
theorem dotR_apply (l : FVec Ideal Cert.ReferenceIdeal.S50000x128 .f32) (W : FVec Ideal Cert.ReferenceIdeal.S128x128 .f32) (r : Fin 50000) (q : Fin 128) :
    Host.dotGeneral (F := Ideal) Cert.ReferenceIdeal.dot_S50000x128_S128x128_S50000x128_1_0_0_1_n_n none l W (ix2 r q) = ∑ k : Fin 128, l (ix2 r k) * W (ix2 k q) := by
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((ValueIdx.contrEquiv1 Cert.ReferenceIdeal.dot_S50000x128_S128x128_S50000x128_1_0_0_1_n_n 128 rfl rfl).symm k) = ix2 r k := funext fun a => Fin.ext (by
    match a with
    | ⟨0, _⟩ => exact lhsR_0 _ _
    | ⟨1, _⟩ => exact (lhsR_1 _ _).trans hk)
  have er : Cert.ReferenceIdeal.dot_S50000x128_S128x128_S50000x128_1_0_0_1_n_n.rhsIdx (ix2 r q) ((ValueIdx.contrEquiv1 Cert.ReferenceIdeal.dot_S50000x128_S128x128_S50000x128_1_0_0_1_n_n 128 rfl rfl).symm k) = ix2 k q := funext fun a => Fin.ext (by
    match a with
    | ⟨0, _⟩ => exact (rhsR_0 _ _).trans hk
    | ⟨1, _⟩ => exact rhsR_1 _ _)
  rw [el, er]

/-! ## The specification's stages at an entry -/

/-- `Spec.scale` at (r,q): the entry times the column's entry of row r. -/
theorem scale_apply (X : Spec.Arr Ideal S50000x128 .f32) (col : Spec.Arr Ideal S50000x1 .f32) (r : Fin 50000) (q : Fin 128) :
    Spec.scale X col (ix2 r q) = X (ix2 r q) * col (ix2 r 0) := by
  unfold Spec.scale
  show X (ix2 r q) * broadcastInDim _ ![0, 1] Cert.ReferenceIdeal.Gen.bcast_S50000x1_S50000x128_0_1 col (ix2 r q) = _
  rw [broadcastInDim_apply ![0, 1] Cert.ReferenceIdeal.Gen.bcast_S50000x1_S50000x128_0_1 col (ix2 r q) (ix2 r 0) (fun a => by
    match a with
    | ⟨0, _⟩ => rfl
    | ⟨1, _⟩ => rfl)]

/-- `Spec.layer2` at (r,q): the scaled row r against column q of the weights, plus the bias of column q. -/
theorem layer2_apply (msg : Spec.Arr Ideal S50000x128 .f32) (cin : Spec.Arr Ideal S50000x1 .f32) (W : Spec.Arr Ideal S128x128 .f32) (brow : Spec.Arr Ideal S1x128 .f32) (r : Fin 50000) (q : Fin 128) :
    Spec.layer2 msg cin W brow (ix2 r q) = (∑ k : Fin 128, msg (ix2 r k) * cin (ix2 r 0) * W (ix2 k q)) + brow (ix2 0 q) := by
  unfold Spec.layer2
  show Host.dotGeneral (F := Ideal) (φ₁ := .f32) (φ₂ := .f32) Cert.ReferenceIdeal.dot_S50000x128_S128x128_S50000x128_1_0_0_1_n_n none (Spec.scale msg cin) W (ix2 r q) + broadcastInDim _ ![0, 1] Cert.ReferenceIdeal.Gen.bcast_S1x128_S50000x128_0_1 brow (ix2 r q) = _
  rw [dotR_apply, broadcastInDim_apply ![0, 1] Cert.ReferenceIdeal.Gen.bcast_S1x128_S50000x128_0_1 brow (ix2 r q) (ix2 0 q) (fun a => by
    match a with
    | ⟨0, _⟩ => rfl
    | ⟨1, _⟩ => rfl)]
  simp only [scale_apply]

/-- `Spec.layer1` at (r,q): `Spec.layer2` there, not below zero, times the second column's entry of row r. -/
theorem layer1_apply (msg : Spec.Arr Ideal S50000x128 .f32) (cin cout : Spec.Arr Ideal S50000x1 .f32) (W : Spec.Arr Ideal S128x128 .f32) (brow : Spec.Arr Ideal S1x128 .f32) (r : Fin 50000) (q : Fin 128) :
    Spec.layer1 msg cin cout W brow (ix2 r q) = max (Spec.layer2 msg cin W brow (ix2 r q)) (Ideal.ofBits .f32 0x00000000#32) * cout (ix2 r 0) := by
  unfold Spec.layer1
  rw [scale_apply]
  rfl

/-! ## The two matrix bodies at an entry of a block -/

/-- The third region's body at (p,q). -/
theorem pay2_apply (v0 : Vec Ideal S2000x1 .f32) (v4 : Vec Ideal S2000x128 .f32) (v8 : Vec Ideal S128x128 .f32) (v11 : Vec Ideal S1x128 .f32) (p : Fin 2000) (q : Fin 128) :
    k2_pay1 v0 v4 v8 v11 (ix2 p q) = (∑ k : Fin 128, v4 (ix2 p k) * v0 (ix2 p 0) * v8 (ix2 k q)) + v11 (ix2 0 q) := by
  unfold k2_pay1
  simp only [shapeCast_self, addf_apply, matmulK_apply, brow_apply, truncf_apply, mulf_apply, bcol_apply]

/-- The second region's body at (p,q). -/
theorem pay1_apply (v0 : Vec Ideal S2000x1 .f32) (v4 : Vec Ideal S2000x128 .f32) (v8 : Vec Ideal S128x128 .f32) (v11 : Vec Ideal S1x128 .f32) (v17 : Vec Ideal S2000x1 .f32) (p : Fin 2000) (q : Fin 128) :
    k1_pay1 v0 v4 v8 v11 v17 (ix2 p q) = max ((∑ k : Fin 128, v4 (ix2 p k) * v0 (ix2 p 0) * v8 (ix2 k q)) + v11 (ix2 0 q)) (Ideal.ofBits .f32 0x00000000#32) * v17 (ix2 p 0) := by
  unfold k1_pay1
  simp only [shapeCast_self, mulf_apply, maximumf_apply, addf_apply, matmulK_apply, brow_apply, truncf_apply, bcol_apply, broadcast_apply]
  rfl

end Cert.KernelIdeal.Reads

end
-- ==== Proof.Region1.lean ====
/-
  The second region's result array. At block `t` (rows `2000 t … 2000 t + 1999`) the body scales the rows of its first
  operand by the matching entries of the first column operand, multiplies by the whole [128,128] weight array, adds the
  bias row to every row, replaces negative entries by zero and scales the rows by the second column operand. The first
  operand, both columns and the result move with `t`; the weights and the bias row are the same block at every point.
  So what point `t` writes back is block `t` of `Spec.layer1` of the five arrays, and the 25 blocks tile the result.
-/
import proofs.«156590_j82755429859753_1_alg».proof.Proof.Gen.KernelIdeal.Frame
import proofs.«156590_j82755429859753_1_alg».proof.Proof.Gen.ReferenceIdeal
import proofs.«156590_j82755429859753_1_alg».proof.Proof.Spec
import proofs.«156590_j82755429859753_1_alg».proof.Proof.Reads
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the grid: the first operand, the two columns and the result are at block row `t`, the
    weights and the bias row at block (0,0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 25 := Nat.lt_of_lt_of_eq t.isLt (show cfg1.N = 25 from N_1)

/-- What point `t` writes back is block `t` of `Spec.layer1` of the five operand arrays as the region finds them. -/
theorem flushed_eq (c : Dev nD) (t : Fin cfg1.N) :
    (dat1 V c).flushed 5 t = ((cfg1.win 5).blk t).view.read (Elt Ideal)
      (Spec.layer1 (V c main_v24) (V c main_v13) (V c main_v6) (V c main_arg3) (V c main_v25)) := by
  show (cfg1.win 5).cut (grid1.coords t) ((dat1 V c).after 5 t) = _
  rw [after1_5]
  unfold out1_5
  rw [View.canon_unit_zero zeroOffsets]
  simp only [View.ld_unit_zero (S := S2000x128) zeroOffsets, View.ld_unit_zero (S := S2000x1) zeroOffsets,
    View.ld_unit_zero (S := S128x128) zeroOffsets, View.ld_unit_zero (S := S1x128) zeroOffsets]
  obtain ⟨e00, e01, e10, e11, e20, e21, e30, e31, e40, e41, e50, e51⟩ := idx_facts t
  have ht := point_lt t
  funext j
  obtain ⟨p, q, rfl⟩ : ∃ (p : Fin 2000) (q : Fin 128), j = ix2 p q := ⟨j 0, j 1, eq_ix2 j⟩
  have hp := p.isLt
  have hq := q.isLt
  show k1_pay1 (iblk1 V c 1 t) (iblk1 V c 0 t) (iblk1 V c 3 t) (iblk1 V c 4 t) (iblk1 V c 2 t) (ix2 p q)
    = Spec.layer1 (V c main_v24) (V c main_v13) (V c main_v6) (V c main_arg3) (V c main_v25) (((cfg1.win 5).blk t).view.emb (ix2 p q))
  have hemb : ((cfg1.win 5).blk t).view.emb (ix2 p q) = ix2 (⟨t.val * 2000 + p.val, by omega⟩ : Fin 50000) q := by
    funext a; apply Fin.ext
    match a with
    | ⟨0, _⟩ => show win1_5.index t (0 : Fin 2) * 2000 + 1 * p.val = t.val * 2000 + p.val; rw [e50]; omega
    | ⟨1, _⟩ => show win1_5.index t (1 : Fin 2) * 128 + 1 * q.val = q.val; rw [e51]; omega
  have b0 : ∀ k : Fin 128, iblk1 V c 0 t (ix2 p k) = (V c main_v24 : Spec.Arr Ideal S50000x128 .f32) (ix2 (⟨t.val * 2000 + p.val, by omega⟩ : Fin 50000) k) := fun k => by
    have hk := k.isLt
    show V c main_v24 (((cfg1.win 0).blk t).view.emb (ix2 p k)) = _
    refine congrArg (V c main_v24) ?_
    funext a; apply Fin.ext
    match a with
    | ⟨0, _⟩ => show win1_0.index t (0 : Fin 2) * 2000 + 1 * p.val = t.val * 2000 + p.val; rw [e00]; omega
    | ⟨1, _⟩ => show win1_0.index t (1 : Fin 2) * 128 + 1 * k.val = k.val; rw [e01]; omega
  have b1 : iblk1 V c 1 t (ix2 p (0 : Fin 1)) = (V c main_v13 : Spec.Arr Ideal S50000x1 .f32) (ix2 (⟨t.val * 2000 + p.val, by omega⟩ : Fin 50000) (0 : Fin 1)) := by
    show V c main_v13 (((cfg1.win 1).blk t).view.emb (ix2 p (0 : Fin 1))) = _
    refine congrArg (V c main_v13) ?_
    funext a; apply Fin.ext
    match a with
    | ⟨0, _⟩ => show win1_1.index t (0 : Fin 2) * 2000 + 1 * p.val = t.val * 2000 + p.val; rw [e10]; omega
    | ⟨1, _⟩ => show win1_1.index t (1 : Fin 2) * 1 + 1 * 0 = 0; rw [e11]
  have b2 : iblk1 V c 2 t (ix2 p (0 : Fin 1)) = (V c main_v6 : Spec.Arr Ideal S50000x1 .f32) (ix2 (⟨t.val * 2000 + p.val, by omega⟩ : Fin 50000) (0 : Fin 1)) := by
    show V c main_v6 (((cfg1.win 2).blk t).view.emb (ix2 p (0 : Fin 1))) = _
    refine congrArg (V c main_v6) ?_
    funext a; apply Fin.ext
    match a with
    | ⟨0, _⟩ => show win1_2.index t (0 : Fin 2) * 2000 + 1 * p.val = t.val * 2000 + p.val; rw [e20]; omega
    | ⟨1, _⟩ => show win1_2.index t (1 : Fin 2) * 1 + 1 * 0 = 0; rw [e21]
  have b3 : ∀ k : Fin 128, iblk1 V c 3 t (ix2 k q) = (V c main_arg3 : Spec.Arr Ideal S128x128 .f32) (ix2 k q) := fun k => by
    have hk := k.isLt
    show V c main_arg3 (((cfg1.win 3).blk t).view.emb (ix2 k q)) = _
    refine congrArg (V c main_arg3) ?_
    funext a; apply Fin.ext
    match a with
    | ⟨0, _⟩ => show win1_3.index t (0 : Fin 2) * 128 + 1 * k.val = k.val; rw [e30]; omega
    | ⟨1, _⟩ => show win1_3.index t (1 : Fin 2) * 128 + 1 * q.val = q.val; rw [e31]; omega
  have b4 : iblk1 V c 4 t (ix2 (0 : Fin 1) q) = (V c main_v25 : Spec.Arr Ideal S1x128 .f32) (ix2 (0 : Fin 1) q) := by
    show V c main_v25 (((cfg1.win 4).blk t).view.emb (ix2 (0 : Fin 1) q)) = _
    refine congrArg (V c main_v25) ?_
    funext a; apply Fin.ext
    match a with
    | ⟨0, _⟩ => show win1_4.index t (0 : Fin 2) * 1 + 1 * 0 = 0; rw [e40]
    | ⟨1, _⟩ => show win1_4.index t (1 : Fin 2) * 128 + 1 * q.val = q.val; rw [e41]; omega
  rw [hemb, Reads.layer1_apply, Reads.layer2_apply, Reads.pay1_apply, b1, b2, b4]
  simp only [b0, b3]

/-- The 25 blocks tile the array, so it ends at `Spec.layer1` of the five operand arrays. -/
theorem value (c : Dev nD) : (dat1 V c).arrAt 5 cfg1.N
    = Spec.layer1 (V c main_v24) (V c main_v13) (V c main_v6) (V c main_arg3) (V c main_v25) :=
  (dat1 V c).arrAt_eq_of_cover 5 _ (fun t _ => flushed_eq V c t) fun i => by
    have hi0 : (i 0).val < 50000 := (i 0).isLt
    have hi1 : (i 1).val < 128 := (i 1).isLt
    have hN : (i 0).val / 2000 < cfg1.N := by rw [show cfg1.N = 25 from N_1]; omega
    refine ⟨⟨(i 0).val / 2000, hN⟩, flush1_5 _, ?_⟩
    obtain ⟨-, -, -, -, -, -, -, -, -, -, e50, e51⟩ := idx_facts ⟨(i 0).val / 2000, hN⟩
    show i ∈ ((View.whole main_v26).slice (win1_5.rect ⟨(i 0).val / 2000, hN⟩)).set
    rw [View.set_slice_whole, Rect.mem_set_unit]
    intro a
    match a with
    | ⟨0, _⟩ => show win1_5.index ⟨(i 0).val / 2000, hN⟩ (0 : Fin 2) * 2000 ≤ (i 0).val ∧ (i 0).val < win1_5.index ⟨(i 0).val / 2000, hN⟩ (0 : Fin 2) * 2000 + 2000; rw [e50]; show (i 0).val / 2000 * 2000 ≤ (i 0).val ∧ (i 0).val < (i 0).val / 2000 * 2000 + 2000; omega
    | ⟨1, _⟩ => show win1_5.index ⟨(i 0).val / 2000, hN⟩ (1 : Fin 2) * 128 ≤ (i 1).val ∧ (i 1).val < win1_5.index ⟨(i 0).val / 2000, hN⟩ (1 : Fin 2) * 128 + 128; rw [e51]; omega

end Cert.KernelIdeal.Region1

end
-- ==== Proof.ChainB.lean ====
/-
  The kernel's result, boundary by boundary: from the first region's exit to the second's.
    before the second region  g1 = aggregate s0 src dst, and the first bias as a row (a reshape of a vector to a row is
                              the reference's broadcast of it to a row);
    after it                  l1 = layer1 g1 (colOf (inv dst)) (colOf (inv src)) W1 (rowOf b1).
-/
import proofs.«156590_j82755429859753_1_alg».proof.Proof.ChainA
import proofs.«156590_j82755429859753_1_alg».proof.Proof.Region1

set_option maxRecDepth 16384
set_option Elab.async false

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## Before the second region: the first aggregation and the first bias as a row -/

theorem e7_v24 (c : Dev nD) : W7 m ρ c (Proc.devRef .tc main_v24) = g1 m c := by
  walk
  rw [e6_arg2, e6_v14, e6_arg1]
  exact aggregate_eq _ _ _
theorem e7_v25 (c : Dev nD) : W7 m ρ c (Proc.devRef .tc main_v25) = Spec.rowOf (aB1 m c) := by
  walk
  refine Eq.trans ?_ (reshape_row (aB1 m c) shapeCasts_S128_S1x128)
  show shapeCast S1x128 _ shapeCasts_S128_S1x128 = _
  exact congrArg (fun v => shapeCast S1x128 v shapeCasts_S128_S1x128) (e6_arg4 m ρ c)
theorem e7_v13 (c : Dev nD) : W7 m ρ c (Proc.devRef .tc main_v13) = cIn m c := by walk; exact e6_v13 m ρ c
theorem e7_v6 (c : Dev nD) : W7 m ρ c (Proc.devRef .tc main_v6) = cOut m c := by walk; exact e6_v6 m ρ c
theorem e7_arg1 (c : Dev nD) : W7 m ρ c (Proc.devRef .tc main_arg1) = aSrc m c := by walk; exact e6_arg1 m ρ c
theorem e7_arg2 (c : Dev nD) : W7 m ρ c (Proc.devRef .tc main_arg2) = aDst m c := by walk; exact e6_arg2 m ρ c
theorem e7_arg3 (c : Dev nD) : W7 m ρ c (Proc.devRef .tc main_arg3) = aW1 m c := by walk; exact e6_arg3 m ρ c
theorem e7_arg5 (c : Dev nD) : W7 m ρ c (Proc.devRef .tc main_arg5) = aW2 m c := by walk; exact e6_arg5 m ρ c
theorem e7_arg6 (c : Dev nD) : W7 m ρ c (Proc.devRef .tc main_arg6) = aB2 m c := by walk; exact e6_arg6 m ρ c

/-! ## After the second region -/

theorem e8_v26 (c : Dev nD) : W8 m ρ c (Proc.devRef .tc main_v26) = l1 m c :=
  (W8_arr m ρ c 5).trans ((Region1.value (V7 m ρ) c).trans
    (congr (congr (congr (congr (congrArg Spec.layer1 (e7_v24 m ρ c)) (e7_v13 m ρ c)) (e7_v6 m ρ c)) (e7_arg3 m ρ c)) (e7_v25 m ρ c)))
theorem e8_arg1 (c : Dev nD) : W8 m ρ c (Proc.devRef .tc main_arg1) = aSrc m c := (W8_of_ne m ρ c main_arg1 (by decide)).trans (e7_arg1 m ρ c)
theorem e8_arg2 (c : Dev nD) : W8 m ρ c (Proc.devRef .tc main_arg2) = aDst m c := (W8_of_ne m ρ c main_arg2 (by decide)).trans (e7_arg2 m ρ c)
theorem e8_arg5 (c : Dev nD) : W8 m ρ c (Proc.devRef .tc main_arg5) = aW2 m c := (W8_of_ne m ρ c main_arg5 (by decide)).trans (e7_arg5 m ρ c)
theorem e8_arg6 (c : Dev nD) : W8 m ρ c (Proc.devRef .tc main_arg6) = aB2 m c := (W8_of_ne m ρ c main_arg6 (by decide)).trans (e7_arg6 m ρ c)
theorem e8_v13 (c : Dev nD) : W8 m ρ c (Proc.devRef .tc main_v13) = cIn m c :=
  (W8_arr m ρ c 1).trans (((dat1 (V7 m ρ) c).arrAt_in 1 rfl _).trans ((A_eq1 (V7 m ρ) c 1).trans (e7_v13 m ρ c)))

end Cert.KernelIdeal.Chain

end
-- ==== Proof.Region2.lean ====
/-
  The third region's result array. At block `t` (rows `2000 t … 2000 t + 1999`) the body scales the rows of its first
  operand by the matching entries of the column operand, multiplies by the whole [128,128] weight array and adds the bias
  row to every row. The first operand, the column and the result move with `t`; the weights and the bias row are the
  same block at every point. So what point `t` writes back is block `t` of `Spec.layer2` of the four arrays, and the
  25 blocks tile the result.
-/
import proofs.«156590_j82755429859753_1_alg».proof.Proof.Gen.KernelIdeal.Frame
import proofs.«156590_j82755429859753_1_alg».proof.Proof.Gen.ReferenceIdeal
import proofs.«156590_j82755429859753_1_alg».proof.Proof.Spec
import proofs.«156590_j82755429859753_1_alg».proof.Proof.Reads
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the grid: the first operand, the column and the result are at block row `t`, the
    weights and the bias row at block (0,0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem point_lt (t : Fin cfg2.N) : t.val < 25 := Nat.lt_of_lt_of_eq t.isLt (show cfg2.N = 25 from N_2)

/-- What point `t` writes back is block `t` of `Spec.layer2` of the four operand arrays as the region finds them. -/
theorem flushed_eq (c : Dev nD) (t : Fin cfg2.N) :
    (dat2 V c).flushed 4 t = ((cfg2.win 4).blk t).view.read (Elt Ideal)
      (Spec.layer2 (V c main_v36) (V c main_v13) (V c main_arg5) (V c main_v37)) := by
  show (cfg2.win 4).cut (grid2.coords t) ((dat2 V c).after 4 t) = _
  rw [after2_4]
  unfold out2_4
  rw [View.canon_unit_zero zeroOffsets]
  simp only [View.ld_unit_zero (S := S2000x128) zeroOffsets, View.ld_unit_zero (S := S2000x1) zeroOffsets,
    View.ld_unit_zero (S := S128x128) zeroOffsets, View.ld_unit_zero (S := S1x128) zeroOffsets]
  obtain ⟨e00, e01, e10, e11, e20, e21, e30, e31, e40, e41⟩ := idx_facts t
  have ht := point_lt t
  funext j
  obtain ⟨p, q, rfl⟩ : ∃ (p : Fin 2000) (q : Fin 128), j = ix2 p q := ⟨j 0, j 1, eq_ix2 j⟩
  have hp := p.isLt
  have hq := q.isLt
  show k2_pay1 (iblk2 V c 1 t) (iblk2 V c 0 t) (iblk2 V c 2 t) (iblk2 V c 3 t) (ix2 p q)
    = Spec.layer2 (V c main_v36) (V c main_v13) (V c main_arg5) (V c main_v37) (((cfg2.win 4).blk t).view.emb (ix2 p q))
  have hemb : ((cfg2.win 4).blk t).view.emb (ix2 p q) = ix2 (⟨t.val * 2000 + p.val, by omega⟩ : Fin 50000) q := by
    funext a; apply Fin.ext
    match a with
    | ⟨0, _⟩ => show win2_4.index t (0 : Fin 2) * 2000 + 1 * p.val = t.val * 2000 + p.val; rw [e40]; omega
    | ⟨1, _⟩ => show win2_4.index t (1 : Fin 2) * 128 + 1 * q.val = q.val; rw [e41]; omega
  have b0 : ∀ k : Fin 128, iblk2 V c 0 t (ix2 p k) = (V c main_v36 : Spec.Arr Ideal S50000x128 .f32) (ix2 (⟨t.val * 2000 + p.val, by omega⟩ : Fin 50000) k) := fun k => by
    have hk := k.isLt
    show V c main_v36 (((cfg2.win 0).blk t).view.emb (ix2 p k)) = _
    refine congrArg (V c main_v36) ?_
    funext a; apply Fin.ext
    match a with
    | ⟨0, _⟩ => show win2_0.index t (0 : Fin 2) * 2000 + 1 * p.val = t.val * 2000 + p.val; rw [e00]; omega
    | ⟨1, _⟩ => show win2_0.index t (1 : Fin 2) * 128 + 1 * k.val = k.val; rw [e01]; omega
  have b1 : iblk2 V c 1 t (ix2 p (0 : Fin 1)) = (V c main_v13 : Spec.Arr Ideal S50000x1 .f32) (ix2 (⟨t.val * 2000 + p.val, by omega⟩ : Fin 50000) (0 : Fin 1)) := by
    show V c main_v13 (((cfg2.win 1).blk t).view.emb (ix2 p (0 : Fin 1))) = _
    refine congrArg (V c main_v13) ?_
    funext a; apply Fin.ext
    match a with
    | ⟨0, _⟩ => show win2_1.index t (0 : Fin 2) * 2000 + 1 * p.val = t.val * 2000 + p.val; rw [e10]; omega
    | ⟨1, _⟩ => show win2_1.index t (1 : Fin 2) * 1 + 1 * 0 = 0; rw [e11]
  have b2 : ∀ k : Fin 128, iblk2 V c 2 t (ix2 k q) = (V c main_arg5 : Spec.Arr Ideal S128x128 .f32) (ix2 k q) := fun k => by
    have hk := k.isLt
    show V c main_arg5 (((cfg2.win 2).blk t).view.emb (ix2 k q)) = _
    refine congrArg (V c main_arg5) ?_
    funext a; apply Fin.ext
    match a with
    | ⟨0, _⟩ => show win2_2.index t (0 : Fin 2) * 128 + 1 * k.val = k.val; rw [e20]; omega
    | ⟨1, _⟩ => show win2_2.index t (1 : Fin 2) * 128 + 1 * q.val = q.val; rw [e21]; omega
  have b3 : iblk2 V c 3 t (ix2 (0 : Fin 1) q) = (V c main_v37 : Spec.Arr Ideal S1x128 .f32) (ix2 (0 : Fin 1) q) := by
    show V c main_v37 (((cfg2.win 3).blk t).view.emb (ix2 (0 : Fin 1) q)) = _
    refine congrArg (V c main_v37) ?_
    funext a; apply Fin.ext
    match a with
    | ⟨0, _⟩ => show win2_3.index t (0 : Fin 2) * 1 + 1 * 0 = 0; rw [e30]
    | ⟨1, _⟩ => show win2_3.index t (1 : Fin 2) * 128 + 1 * q.val = q.val; rw [e31]; omega
  rw [hemb, Reads.layer2_apply, Reads.pay2_apply, b1, b3]
  simp only [b0, b2]

/-- The 25 blocks tile the array, so it ends at `Spec.layer2` of the four operand arrays. -/
theorem value (c : Dev nD) : (dat2 V c).arrAt 4 cfg2.N
    = Spec.layer2 (V c main_v36) (V c main_v13) (V c main_arg5) (V c main_v37) :=
  (dat2 V c).arrAt_eq_of_cover 4 _ (fun t _ => flushed_eq V c t) fun i => by
    have hi0 : (i 0).val < 50000 := (i 0).isLt
    have hi1 : (i 1).val < 128 := (i 1).isLt
    have hN : (i 0).val / 2000 < cfg2.N := by rw [show cfg2.N = 25 from N_2]; omega
    refine ⟨⟨(i 0).val / 2000, hN⟩, flush2_4 _, ?_⟩
    obtain ⟨-, -, -, -, -, -, -, -, e40, e41⟩ := idx_facts ⟨(i 0).val / 2000, hN⟩
    show i ∈ ((View.whole main_v38).slice (win2_4.rect ⟨(i 0).val / 2000, hN⟩)).set
    rw [View.set_slice_whole, Rect.mem_set_unit]
    intro a
    match a with
    | ⟨0, _⟩ => show win2_4.index ⟨(i 0).val / 2000, hN⟩ (0 : Fin 2) * 2000 ≤ (i 0).val ∧ (i 0).val < win2_4.index ⟨(i 0).val / 2000, hN⟩ (0 : Fin 2) * 2000 + 2000; rw [e40]; show (i 0).val / 2000 * 2000 ≤ (i 0).val ∧ (i 0).val < (i 0).val / 2000 * 2000 + 2000; omega
    | ⟨1, _⟩ => show win2_4.index ⟨(i 0).val / 2000, hN⟩ (1 : Fin 2) * 128 ≤ (i 1).val ∧ (i 1).val < win2_4.index ⟨(i 0).val / 2000, hN⟩ (1 : Fin 2) * 128 + 128; rw [e41]; omega

end Cert.KernelIdeal.Region2

end
-- ==== Proof.ChainC.lean ====
/-
  The kernel's result, boundary by boundary: from the second region's exit to the end.
    before the third region   g2 = aggregate l1 src dst, and the second bias as a row;
    after it                  layer2 g2 (colOf (inv dst)) W2 (rowOf b2), which is `Spec.G` of the arguments.
-/
import proofs.«156590_j82755429859753_1_alg».proof.Proof.ChainB
import proofs.«156590_j82755429859753_1_alg».proof.Proof.Region2

set_option maxRecDepth 16384
set_option Elab.async false

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## Before the third region: the second aggregation and the second bias as a row -/

theorem e9_v36 (c : Dev nD) : W9 m ρ c (Proc.devRef .tc main_v36) = g2 m c := by
  walk
  rw [e8_arg2, e8_v26, e8_arg1]
  exact aggregate_eq _ _ _
theorem e9_v37 (c : Dev nD) : W9 m ρ c (Proc.devRef .tc main_v37) = Spec.rowOf (aB2 m c) := by
  walk
  refine Eq.trans ?_ (reshape_row (aB2 m c) shapeCasts_S128_S1x128)
  show shapeCast S1x128 _ shapeCasts_S128_S1x128 = _
  exact congrArg (fun v => shapeCast S1x128 v shapeCasts_S128_S1x128) (e8_arg6 m ρ c)
theorem e9_v13 (c : Dev nD) : W9 m ρ c (Proc.devRef .tc main_v13) = cIn m c := by walk; exact e8_v13 m ρ c
theorem e9_arg5 (c : Dev nD) : W9 m ρ c (Proc.devRef .tc main_arg5) = aW2 m c := by walk; exact e8_arg5 m ρ c

/-! ## After the third region: the result -/

/-- The result buffer at the last boundary is the specification of the argument arrays. -/
theorem result (c : Dev nD) : W10 m ρ c (Proc.devRef .tc main_v38)
    = Spec.G (aX m c) (aSrc m c) (aDst m c) (aW1 m c) (aB1 m c) (aW2 m c) (aB2 m c) :=
  (W10_arr m ρ c 4).trans ((Region2.value (V9 m ρ) c).trans
    (congr (congr (congr (congrArg Spec.layer2 (e9_v36 m ρ c)) (e9_v13 m ρ c)) (e9_arg5 m ρ c)) (e9_v37 m ρ c)))

end Cert.KernelIdeal.Chain

end
-- ==== Proof.lean ====
/-
  A two-layer graph convolution on 50000 nodes and 800000 edges, features of width 128: the kernel against its jnp
  reference, over the extended reals.

  Both programs compute, from the node features `x`, the edge ends `src`, `dst` and two dense layers,
      layer (relu (layer (x · inv src) W1 b1) · inv src) W2 b2,    layer h W b = (aggregate h · inv dst) W + b,
  where `inv idx` is the inverse square root of the clipped degree and `aggregate` sums, into each node, the rows of its
  in-neighbours (`Spec.G`, Proof/Spec.lean). The reference is that expression as one host program. The kernel does the
  degree counts and the two aggregations on the host, as the same operations, and the three dense pieces as three
  regions of 25 row blocks each: `x · inv src`; then `relu((g · inv dst) W1 + b1) · inv src`; then `(g · inv dst) W2 + b2`.
  At the ideal instance a change of float format is the identity and a matrix product is the plain sum over the
  contracted index on both sides, so each region's array is the matching stage of `Spec.G` entry by entry
  (Proof/Region0.lean, Region1.lean, Region2.lean over Proof/Reads.lean), the stages chain through the host stretches
  (Proof/ChainA.lean, ChainB.lean, ChainC.lean), and the two results are one function of the arguments. No law beyond reading the same sums is
  used, so the precondition is never opened. The ideal pass rewrote nothing: the fourth conjunct is `True`.
-/
import proofs.«156590_j82755429859753_1_alg».proof.Defs
import proofs.«156590_j82755429859753_1_alg».proof.Proof.Gen.Kernel
import proofs.«156590_j82755429859753_1_alg».proof.Proof.Gen.Kernel.Skeleton
import proofs.«156590_j82755429859753_1_alg».proof.Proof.Gen.Kernel.Launch
import proofs.«156590_j82755429859753_1_alg».proof.Proof.Gen.Kernel.Points
import proofs.«156590_j82755429859753_1_alg».proof.Proof.Gen.Kernel.Frame
import proofs.«156590_j82755429859753_1_alg».proof.Proof.Gen.KernelIdeal
import proofs.«156590_j82755429859753_1_alg».proof.Proof.Gen.KernelIdeal.Skeleton
import proofs.«156590_j82755429859753_1_alg».proof.Proof.Gen.KernelIdeal.Launch
import proofs.«156590_j82755429859753_1_alg».proof.Proof.Gen.KernelIdeal.Points
import proofs.«156590_j82755429859753_1_alg».proof.Proof.Gen.KernelIdeal.Frame
import proofs.«156590_j82755429859753_1_alg».proof.Proof.Gen.ReferenceIdeal
import proofs.«156590_j82755429859753_1_alg».proof.Proof.Gen.ReferenceIdeal.Run
import proofs.«156590_j82755429859753_1_alg».proof.Proof.Gen.Pre_finite_inputs
import proofs.«156590_j82755429859753_1_alg».proof.Proof.Spec
import proofs.«156590_j82755429859753_1_alg».proof.Proof.KernelRun
import proofs.«156590_j82755429859753_1_alg».proof.Proof.ChainC
import Idealize.ShloMosaic.Adequacy
import Idealize.ShloMosaic.Init

set_option maxRecDepth 16384

noncomputable section

namespace Cert.Proof

open Idealize.ShloMosaic Idealize.SL.Sem

/-- The word-level kernel runs and keeps its arguments: the generated frame of its three regions. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's result term is `Spec.G` of its argument arrays: the same operations in the same order. -/
theorem reference_eq (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v64 (F := Ideal) m' c
      = Cert.Spec.G (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) := rfl

/-- From memories that agree on the seven arguments both programs end with the result array at `Spec.G` of them. -/
theorem algebraic : Cert.algebraic_KernelIdeal_ReferenceIdeal := by
  intro m ρ m' ρ' _ hagree
  refine ⟨fun c => Cert.Spec.G (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Chain.result m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6⟩ := hagree c
    rw [reference_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
